-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S1280000 : Shape := ⟨1, ![1280000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1280000 : S_.BroadcastsInDim S1280000 (![] : Fin 0 → Fin S1280000.rank)
  reducesTo_S1280000_S_d0 : S1280000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1280000 32) (main_arg2 : FVec F S1280000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1280000 .f32 := Host.absf main_arg2
  let main_cst_0 : FVec F S_ .f32 := constant S_ .f32 0x7F800000#32
  let main_v5 : FVec F S1280000 .f32 := broadcastInDim S1280000 ![] bcast_S_S1280000 main_cst_0
  let main_v6 : IVec S1280000 1 := cmpf .olt main_v4 main_v5
  let main_c_1 : IVec S_ 1 := constantI S_ 1 1#1
  let main_v7 : IVec S_ 1 := (fun x v => Host.reduce IntOp.andi x v reducesTo_S1280000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1280000 : Shape := ⟨2, ![2, 1280000]⟩
abbrev S1280000 : Shape := ⟨1, ![1280000]⟩
abbrev S64x64 : Shape := ⟨2, ![64, 64]⟩
abbrev S64 : Shape := ⟨1, ![64]⟩
abbrev S1x1280000 : Shape := ⟨2, ![1, 1280000]⟩
abbrev S_ : Shape := ⟨0, ![]⟩
abbrev S100000 : Shape := ⟨1, ![100000]⟩
abbrev S1280000x1 : Shape := ⟨2, ![1280000, 1]⟩
abbrev S2000x64 : Shape := ⟨2, ![2000, 64]⟩
abbrev S1x64 : Shape := ⟨2, ![1, 64]⟩
abbrev S1280000x64 : Shape := ⟨2, ![1280000, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 59
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S1280000, .f32⟩
  | .hbm, ⟨3, _⟩ => ⟨S64x64, .f32⟩
  | .hbm, ⟨4, _⟩ => ⟨S64, .f32⟩
  | .hbm, ⟨5, _⟩ => ⟨S1x1280000, .i32⟩
  | .hbm, ⟨6, _⟩ => ⟨S1280000, .i32⟩
  | .hbm, ⟨7, _⟩ => ⟨S1x1280000, .i32⟩
  | .hbm, ⟨8, _⟩ => ⟨S1280000, .i32⟩
  | .hbm, ⟨9, _⟩ => ⟨S_, .f32⟩
  | .hbm, ⟨10, _⟩ => ⟨S1280000, .f32⟩
  | .hbm, ⟨11, _⟩ => ⟨S_, .f32⟩
  | .hbm, ⟨12, _⟩ => ⟨S100000, .f32⟩
  | .hbm, ⟨13, _⟩ => ⟨S1280000x1, .i32⟩
  | .hbm, ⟨14, _⟩ => ⟨S100000, .f32⟩
  | .hbm, ⟨15, _⟩ => ⟨S_, .i32⟩
  | .hbm, ⟨16, _⟩ => ⟨S1280000, .i32⟩
  | .hbm, ⟨17, _⟩ => ⟨S1280000, .i1⟩
  | .hbm, ⟨18, _⟩ => ⟨S_, .i32⟩
  | .hbm, ⟨19, _⟩ => ⟨S1280000, .i32⟩
  | .hbm, ⟨20, _⟩ => ⟨S1280000, .i32⟩
  | .hbm, ⟨21, _⟩ => ⟨S1280000, .i32⟩
  | .hbm, ⟨22, _⟩ => ⟨S1280000x1, .i32⟩
  | .hbm, ⟨23, _⟩ => ⟨S1280000, .f32⟩
  | .hbm, ⟨24, _⟩ => ⟨S_, .i32⟩
  | .hbm, ⟨25, _⟩ => ⟨S1280000, .i32⟩
  | .hbm, ⟨26, _⟩ => ⟨S1280000, .i1⟩
  | .hbm, ⟨27, _⟩ => ⟨S_, .i32⟩
  | .hbm, ⟨28, _⟩ => ⟨S1280000, .i32⟩
  | .hbm, ⟨29, _⟩ => ⟨S1280000, .i32⟩
  | .hbm, ⟨30, _⟩ => ⟨S1280000, .i32⟩
  | .hbm, ⟨31, _⟩ => ⟨S1280000x1, .i32⟩
  | .hbm, ⟨32, _⟩ => ⟨S1280000, .f32⟩
  | .hbm, ⟨33, _⟩ => ⟨S1280000, .f32⟩
  | .hbm, ⟨34, _⟩ => ⟨S_, .f32⟩
  | .hbm, ⟨35, _⟩ => ⟨S1280000, .f32⟩
  | .hbm, ⟨36, _⟩ => ⟨S1280000, .f32⟩
  | .hbm, ⟨37, _⟩ => ⟨S1280000, .f32⟩
  | .hbm, ⟨38, _⟩ => ⟨S1280000, .f32⟩
  | .hbm, ⟨39, _⟩ => ⟨S1280000, .f32⟩
  | .hbm, ⟨40, _⟩ => ⟨S1280000, .f32⟩
  | .hbm, ⟨41, _⟩ => ⟨S100000x64, .f32⟩
  | .hbm, ⟨42, _⟩ => ⟨S1280000x1, .f32⟩
  | .hbm, ⟨43, _⟩ => ⟨S_, .i32⟩
  | .hbm, ⟨44, _⟩ => ⟨S1280000, .i32⟩
  | .hbm, ⟨45, _⟩ => ⟨S1280000, .i1⟩
  | .hbm, ⟨46, _⟩ => ⟨S_, .i32⟩
  | .hbm, ⟨47, _⟩ => ⟨S1280000, .i32⟩
  | .hbm, ⟨48, _⟩ => ⟨S1280000, .i32⟩
  | .hbm, ⟨49, _⟩ => ⟨S1280000, .i32⟩
  | .hbm, ⟨50, _⟩ => ⟨S1280000x1, .i32⟩
  | .hbm, ⟨51, _⟩ => ⟨S1280000x64, .f32⟩
  | .hbm, ⟨52, _⟩ => ⟨S1280000x64, .f32⟩
  | .hbm, ⟨53, _⟩ => ⟨S1280000x64, .f32⟩
  | .hbm, ⟨54, _⟩ => ⟨S_, .f32⟩
  | .hbm, ⟨55, _⟩ => ⟨S100000x64, .f32⟩
  | .hbm, ⟨56, _⟩ => ⟨S1280000x1, .i32⟩
  | .hbm, ⟨57, _⟩ => ⟨S100000x64, .f32⟩
  | .hbm, ⟨58, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  dot_S2000x64_S64x64_S2000x64_1_0_0_1_n_n_wf : DotDims.WF S2000x64 S64x64 S2000x64 [1] [0] [0] [1] [] []
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S1280000 : Shape := ⟨1, ![1280000]⟩
abbrev S64x64 : Shape := ⟨2, ![64, 64]⟩
abbrev S64 : Shape := ⟨1, ![64]⟩
abbrev S1x1280000 : Shape := ⟨2, ![1, 1280000]⟩
abbrev S_ : Shape := ⟨0, ![]⟩
abbrev S100000 : Shape := ⟨1, ![100000]⟩
abbrev S1280000x1 : Shape := ⟨2, ![1280000, 1]⟩
abbrev S1x64 : Shape := ⟨2, ![1, 64]⟩
abbrev S1280000x64 : Shape := ⟨2, ![1280000, 64]⟩
abbrev S100000x1 : Shape := ⟨2, ![100000, 1]⟩

abbrev nBuf : Space → Nat
  | .hbm => 80
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S1280000, .f32⟩
  | .hbm, ⟨3, _⟩ => ⟨S64x64, .f32⟩
  | .hbm, ⟨4, _⟩ => ⟨S64, .f32⟩
  | .hbm, ⟨5, _⟩ => ⟨S1x1280000, .i32⟩
  | .hbm, ⟨6, _⟩ => ⟨S1280000, .i32⟩
  | .hbm, ⟨7, _⟩ => ⟨S1x1280000, .i32⟩
  | .hbm, ⟨8, _⟩ => ⟨S1280000, .i32⟩
  | .hbm, ⟨9, _⟩ => ⟨S_, .f32⟩
  | .hbm, ⟨10, _⟩ => ⟨S1280000, .f32⟩
  | .hbm, ⟨11, _⟩ => ⟨S_, .f32⟩
  | .hbm, ⟨12, _⟩ => ⟨S100000, .f32⟩
  | .hbm, ⟨13, _⟩ => ⟨S1280000x1, .i32⟩
  | .hbm, ⟨14, _⟩ => ⟨S100000, .f32⟩
  | .hbm, ⟨15, _⟩ => ⟨S_, .i32⟩
  | .hbm, ⟨16, _⟩ => ⟨S1280000, .i32⟩
  | .hbm, ⟨17, _⟩ => ⟨S1280000, .i1⟩
  | .hbm, ⟨18, _⟩ => ⟨S_, .i32⟩
  | .hbm, ⟨19, _⟩ => ⟨S1280000, .i32⟩
  | .hbm, ⟨20, _⟩ => ⟨S1280000, .i32⟩
  | .hbm, ⟨21, _⟩ => ⟨S1280000, .i32⟩
  | .hbm, ⟨22, _⟩ => ⟨S1280000x1, .i32⟩
  | .hbm, ⟨23, _⟩ => ⟨S1280000, .f32⟩
  | .hbm, ⟨24, _⟩ => ⟨S_, .i32⟩
  | .hbm, ⟨25, _⟩ => ⟨S1280000, .i32⟩
  | .hbm, ⟨26, _⟩ => ⟨S1280000, .i1⟩
  | .hbm, ⟨27, _⟩ => ⟨S_, .i32⟩
  | .hbm, ⟨28, _⟩ => ⟨S1280000, .i32⟩
  | .hbm, ⟨29, _⟩ => ⟨S1280000, .i32⟩
  | .hbm, ⟨30, _⟩ => ⟨S1280000, .i32⟩
  | .hbm, ⟨31, _⟩ => ⟨S1280000x1, .i32⟩
  | .hbm, ⟨32, _⟩ => ⟨S1280000, .f32⟩
  | .hbm, ⟨33, _⟩ => ⟨S1280000, .f32⟩
  | .hbm, ⟨34, _⟩ => ⟨S_, .f32⟩
  | .hbm, ⟨35, _⟩ => ⟨S1280000, .f32⟩
  | .hbm, ⟨36, _⟩ => ⟨S1280000, .f32⟩
  | .hbm, ⟨37, _⟩ => ⟨S1280000, .f32⟩
  | .hbm, ⟨38, _⟩ => ⟨S1280000, .f32⟩
  | .hbm, ⟨39, _⟩ => ⟨S1280000, .f32⟩
  | .hbm, ⟨40, _⟩ => ⟨S1280000, .f32⟩
  | .hbm, ⟨41, _⟩ => ⟨S64x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S1280000x1, .f32⟩
  | .hbm, ⟨47, _⟩ => ⟨S_, .i32⟩
  | .hbm, ⟨48, _⟩ => ⟨S1280000, .i32⟩
  | .hbm, ⟨49, _⟩ => ⟨S1280000, .i1⟩
  | .hbm, ⟨50, _⟩ => ⟨S_, .i32⟩
  | .hbm, ⟨51, _⟩ => ⟨S1280000, .i32⟩
  | .hbm, ⟨52, _⟩ => ⟨S1280000, .i32⟩
  | .hbm, ⟨53, _⟩ => ⟨S1280000, .i32⟩
  | .hbm, ⟨54, _⟩ => ⟨S1280000x1, .i32⟩
  | .hbm, ⟨55, _⟩ => ⟨S1280000x64, .f32⟩
  | .hbm, ⟨56, _⟩ => ⟨S1280000x64, .f32⟩
  | .hbm, ⟨57, _⟩ => ⟨S1280000x64, .f32⟩
  | .hbm, ⟨58, _⟩ => ⟨S_, .f32⟩
  | .hbm, ⟨59, _⟩ => ⟨S100000x64, .f32⟩
  | .hbm, ⟨60, _⟩ => ⟨S1280000x1, .i32⟩
  | .hbm, ⟨61, _⟩ => ⟨S100000x64, .f32⟩
  | .hbm, ⟨62, _⟩ => ⟨S_, .f32⟩
  | .hbm, ⟨63, _⟩ => ⟨S_, .f32⟩
  | .hbm, ⟨64, _⟩ => ⟨S100000x64, .f32⟩
  | .hbm, ⟨65, _⟩ => ⟨S100000x64, .i1⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000, .f32⟩
  | .hbm, ⟨73, _⟩ => ⟨S100000x1, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | .hbm, ⟨78, _⟩ => ⟨S100000x64, .f32⟩
  | .hbm, ⟨79, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v47 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_call1_v2 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  dot_S100000x64_S64x64_S100000x64_1_0_0_1_n_n_wf : DotDims.WF S100000x64 S64x64 S100000x64 [1] [0] [0] [1] [] []
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf

class Facts : Prop extends Facts₀ where

variable [Facts]
-- ==== Proof.Layer.lean ====
/-
  One message-passing layer, as plain functions on the extended reals.

  A node feature matrix `x` (100000 nodes, 64 features) is first mapped linearly, `h[n, j] = Σ_k x[n, k] · w[j, k] + b[j]`
  (the weight matrix is applied transposed). After the per-edge weighting and the sum over incoming edges — which both
  programs carry out with the same host operations, so nothing is said about it here — each node's row is passed
  through a leaky rectifier and divided by its Euclidean length, the length bounded below by a small constant so that a
  zero row stays zero.

  The two maps are stated at explicit coordinates `(n, j)`; the array forms read a rank-2 index through its coordinates.
  The float literals stay the words they are printed as: the same word stands on both sides of every comparison made
  with these functions, so its value is never needed (only the zero word's is, where a sum starts from it).
-/
import Idealize.ShloMosaic.PureOps.Ideal
import Idealize.ShloMosaic.Lib.ValueIdx

noncomputable section

open scoped BigOperators

namespace Cert.Layer

open Idealize.ShloMosaic Idealize.ShloMosaic.ValueIdx

/-- Node features: 100000 rows of 64. -/
abbrev Feat : Shape := ⟨2, ![100000, 64]⟩
/-- The square weight matrix. -/
abbrev Wt : Shape := ⟨2, ![64, 64]⟩
/-- The bias row. -/
abbrev Bias : Shape := ⟨1, ![64]⟩

/-! ## The linear map -/

/-- Entry `(n, j)` of `x · wᵀ + b`: the row `n` of `x` against the ROW `j` of `w`, plus `b j`. -/
def linearAt (x : Feat.Idx → EReal) (w : Wt.Idx → EReal) (b : Bias.Idx → EReal) (n : Fin 100000) (j : Fin 64) : EReal :=
  (∑ k : Fin 64, x (ix2 n k) * w (ix2 j k)) + b (ix1 j)

/-- `x · wᵀ + b` as an array. -/
def linear (x : Feat.Idx → EReal) (w : Wt.Idx → EReal) (b : Bias.Idx → EReal) : Feat.Idx → EReal :=
  fun i => linearAt x w b (i 0) (i 1)

theorem linear_ix2 (x : Feat.Idx → EReal) (w : Wt.Idx → EReal) (b : Bias.Idx → EReal) (n : Fin 100000) (j : Fin 64) :
    linear x w b (ix2 n j) = linearAt x w b n j := rfl

/-! ## The rectifier and the row normalization -/

/-- The rectifier's slope below zero: the f32 nearest to one hundredth. -/
def slope : EReal := Ideal.ofBits .f32 0x3C23D70A#32
/-- The lower bound put on a row's length: the f32 nearest to 10⁻¹². -/
def minLength : EReal := Ideal.ofBits .f32 0x2B8CBCCC#32

/-- The leaky rectifier: `a` where `a ≥ 0`, `slope · a` below. -/
def leaky (a : EReal) : EReal :=
  Scalar.select (Ideal.cmp .oge a (Ideal.ofBits .f32 0x00000000#32)) a (slope * a)

/-- The sum of the squares of the rectified row `n`. -/
def rowSquares (a : Feat.Idx → EReal) (n : Fin 100000) : EReal :=
  ∑ k : Fin 64, leaky (a (ix2 n k)) * leaky (a (ix2 n k))

/-- The divisor of row `n`: its rectified length, at least `minLength`. -/
def rowLength (a : Feat.Idx → EReal) (n : Fin 100000) : EReal :=
  max (Ideal.sqrt (rowSquares a n)) minLength

/-- Entry `(n, j)` of the normalized rectified array. -/
def normalizeAt (a : Feat.Idx → EReal) (n : Fin 100000) (j : Fin 64) : EReal :=
  Ideal.div (leaky (a (ix2 n j))) (rowLength a n)

/-- Each row rectified and divided by its length. -/
def normalize (a : Feat.Idx → EReal) : Feat.Idx → EReal :=
  fun i => normalizeAt a (i 0) (i 1)

theorem normalize_ix2 (a : Feat.Idx → EReal) (n : Fin 100000) (j : Fin 64) :
    normalize a (ix2 n j) = normalizeAt a n j := rfl

end Cert.Layer

end
-- ==== Proof.LinearBlocks.lean ====
/-
  The first kernel region, read as a value: fifty grid points each take 2000 rows of the feature matrix, multiply them
  with the transposed weights and add the bias row, and write the 2000 result rows back. Every row of the result array
  is written by exactly one point, so after the region the array holds `x · wᵀ + b` of the arrays the region found.
-/
import proofs.«422083_j9234179686472_4_alg».proof.Proof.Gen.KernelIdeal.Frame
import proofs.«422083_j9234179686472_4_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LinearBlocks

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered: a parameter here
variable (V : (c : Dev nD) → (b : Ref sig .tc) → Buf (Elt Ideal) ((c : Thread nD τ).loc b))

/-! ## The contraction's operand indices, axis by axis -/

/-- The left operand is read at the result's row … -/
theorem lhs_axis0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- … and, along its columns, at the contraction position. -/
theorem lhs_axis1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q

/-- The right operand is read, along its rows, at the contraction position … -/
theorem rhs_axis0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q

/-- … and at the result's column. -/
theorem rhs_axis1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The product of a block of rows with the transposed weights, read at an entry. -/
theorem matmul_at (x0 : FVec Ideal S2000x64 .f32) (y : FVec Ideal S64x64 .f32) (p : Fin 2000) (q : Fin 64) :
    FloatOps.matmul dot_S2000x64_S64x64_S2000x64_1_0_0_1_n_n (some .fp32) x0 y (constant (F := Ideal) S2000x64 .f32 0x00000000#32) (ix2 p q)
      = ∑ k : Fin 64, x0 (ix2 p k) * y (ix2 k q) := by
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2000x64_S64x64_S2000x64_1_0_0_1_n_n.rhsIdx (ix2 p q)
      ((contrEquiv1 dot_S2000x64_S64x64_S2000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The transposed weights at an entry. -/
theorem transpose_at (x1 : Vec Ideal S64x64 .f32) (k q : Fin 64) :
    transpose S64x64 [1, 0] x1 transposes_S64x64_p1_0_S64x64 (ix2 k q) = x1 (ix2 q k) :=
  transpose_apply [1, 0] x1 transposes_S64x64_p1_0_S64x64 (ix2 k q) (ix2 q k) (fun b => by
    match b with
    | ⟨0, _⟩ => rfl
    | ⟨1, _⟩ => rfl)

/-- The bias row laid along every row of the block, at an entry. -/
theorem bias_at (x2 : Vec Ideal S64 .f32) (p : Fin 2000) (q : Fin 64) :
    broadcastTo S2000x64 (shapeCast S1x64 x2 shapeCasts_S64_S1x64) broadcasts_S1x64_S2000x64 (ix2 p q) = x2 (ix1 q) := by
  refine (broadcastTo_apply (shapeCast S1x64 x2 shapeCasts_S64_S1x64) broadcasts_S1x64_S2000x64 (ix2 p q)
    (ix2 (0 : Fin 1) q) (fun a => by
      match a with
      | ⟨0, _⟩ => rfl
      | ⟨1, _⟩ => rfl)).trans ?_
  exact shapeCast_a_1a_apply x2 shapeCasts_S64_S1x64 (0 : Fin 1) q

/-- The body's arithmetic at an entry of the block: the row of features against the row of weights, plus the bias. -/
theorem payload_at (x0 : Vec Ideal S2000x64 .f32) (x1 : Vec Ideal S64x64 .f32) (x2 : Vec Ideal S64 .f32)
    (p : Fin 2000) (q : Fin 64) :
    k0_pay1 x0 x1 x2 (ix2 p q) = (∑ k : Fin 64, x0 (ix2 p k) * x1 (ix2 q k)) + x2 (ix1 q) := by
  unfold k0_pay1
  rw [addf_apply]
  simp only [matmul]
  rw [matmul_at, bias_at]
  refine congrArg (· + x2 (ix1 q)) (Finset.sum_congr rfl fun k _ => ?_)
  rw [transpose_at]

/-! ## What a point writes back -/

/-- The body's accesses start at the origin of their buffers. -/
theorem zero_off2 : (![0, 0] : Fin 2 → Nat) = fun _ => 0 := funext fun a => by fin_cases a <;> rfl
theorem zero_off1 : (![0] : Fin 1 → Nat) = fun _ => 0 := funext fun a => by fin_cases a <;> rfl

/-- The printed index maps over the grid: the feature block moves with the output block along the rows and stays at
    column block 0, the weights and the bias are their one block, and the output's row block is the point's number. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) = t.val :=
  (by decide +kernel : ∀ t : Fin grid0.N, _)

/-- The feature block of point `t` is rows `2000 t … 2000 t + 1999` of the feature matrix. -/
theorem feat_block (c : Dev nD) (t : Fin cfg0.N) (p : Fin 2000) (k : Fin 64) (n : Fin 100000)
    (hn : n.val = t.val * 2000 + p.val) :
    iblk0 V c 0 t (ix2 p k) = V c main_arg0 (ix2 n k) := by
  obtain ⟨e0, e1, e2, e3, e4, e5, e6⟩ := index_facts t
  unfold iblk0
  rw [View.read_apply]
  show V c main_arg0 _ = V c main_arg0 _
  congr 1
  funext a
  apply Fin.ext
  match a with
  | ⟨0, _⟩ => show win0_0.index t (0 : Fin 2) * 2000 + 1 * p.val = n.val; omega
  | ⟨1, _⟩ => show win0_0.index t (1 : Fin 2) * 64 + 1 * k.val = k.val; omega

/-- The weight block of every point is the whole weight matrix. -/
theorem weight_block (c : Dev nD) (t : Fin cfg0.N) (j k : Fin 64) :
    iblk0 V c 1 t (ix2 j k) = V c main_arg3 (ix2 j k) := by
  obtain ⟨e0, e1, e2, e3, e4, e5, e6⟩ := index_facts t
  unfold iblk0
  rw [View.read_apply]
  show V c main_arg3 _ = V c main_arg3 _
  congr 1
  funext a
  apply Fin.ext
  match a with
  | ⟨0, _⟩ => show win0_1.index t (0 : Fin 2) * 64 + 1 * j.val = j.val; omega
  | ⟨1, _⟩ => show win0_1.index t (1 : Fin 2) * 64 + 1 * k.val = k.val; omega

/-- The bias block of every point is the whole bias row. -/
theorem bias_block (c : Dev nD) (t : Fin cfg0.N) (j : Fin 64) :
    iblk0 V c 2 t (ix1 j) = V c main_arg4 (ix1 j) := by
  obtain ⟨e0, e1, e2, e3, e4, e5, e6⟩ := index_facts t
  unfold iblk0
  rw [View.read_apply]
  show V c main_arg4 _ = V c main_arg4 _
  congr 1
  funext a
  apply Fin.ext
  match a with
  | ⟨0, _⟩ => show win0_2.index t (0 : Fin 1) * 64 + 1 * j.val = j.val; omega

/-- What point `t` writes back is block `t` of the linear map of the arrays the region entered with. -/
theorem flushed_eq (c : Dev nD) (t : Fin cfg0.N) :
    (dat0 (F := Ideal) V c).flushed 3 t
      = ((cfg0.win 3).blk t).view.read (Elt Ideal) (Cert.Layer.linear (V c main_arg0) (V c main_arg3) (V c main_arg4)) := by
  show (cfg0.win 3).cut (grid0.coords t) ((dat0 (F := Ideal) V c).after 3 t) = _
  rw [after0_3]
  unfold out0_3
  rw [View.canon_unit_zero zero_off2]
  simp only [View.ld_unit_zero (S := S2000x64) zero_off2, View.ld_unit_zero (S := S64x64) zero_off2, View.ld_unit_zero (S := S64) zero_off1]
  obtain ⟨e0, e1, e2, e3, e4, e5, e6⟩ := index_facts t
  have ht : t.val < 50 := lt_of_lt_of_eq t.isLt N_0
  funext y
  obtain ⟨p, q, rfl⟩ : ∃ (p : Fin 2000) (q : Fin 64), y = ix2 p q := ⟨y 0, y 1, eq_ix2 y⟩
  have hn : t.val * 2000 + p.val < 100000 := by have := p.isLt; omega
  show k0_pay1 (iblk0 V c 0 t) (iblk0 V c 1 t) (iblk0 V c 2 t) (ix2 p q)
    = Cert.Layer.linear (V c main_arg0) (V c main_arg3) (V c main_arg4) (((cfg0.win 3).blk t).view.emb (ix2 p q))
  have hemb : ((cfg0.win 3).blk t).view.emb (ix2 p q) = ix2 (⟨t.val * 2000 + p.val, hn⟩ : Fin 100000) q := by
    funext a
    apply Fin.ext
    match a with
    | ⟨0, _⟩ => show win0_3.index t (0 : Fin 2) * 2000 + 1 * p.val = t.val * 2000 + p.val; omega
    | ⟨1, _⟩ => show win0_3.index t (1 : Fin 2) * 64 + 1 * q.val = q.val; omega
  rw [hemb, Cert.Layer.linear_ix2, payload_at, bias_block]
  unfold Cert.Layer.linearAt
  refine congrArg (· + V c main_arg4 (ix1 q)) (Finset.sum_congr rfl fun k _ => ?_)
  rw [feat_block V c t p k ⟨t.val * 2000 + p.val, hn⟩ rfl, weight_block]

/-! ## From the blocks to the array -/

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v29).slice (win0_3.rect t)).set ↔ _
  rw [View.set_slice_whole, Rect.mem_set_unit]
  exact Iff.rfl

/-- Row `n` of the array lies in the block of point `n / 2000`, which is written back. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hq : (i 0).val / 2000 < 50 := by omega
  obtain ⟨t, ht⟩ : ∃ t : Fin cfg0.N, t.val = (i 0).val / 2000 := ⟨⟨(i 0).val / 2000, lt_of_lt_of_eq hq N_0.symm⟩, rfl⟩
  obtain ⟨e0, e1, e2, e3, e4, e5, e6⟩ := index_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- After the first region its output array holds the linear map of the three arrays the region entered with. -/
theorem arr_linear (c : Dev nD) :
    (dat0 (F := Ideal) V c).arrAt 3 cfg0.N
      = Cert.Layer.linear (V c main_arg0) (V c main_arg3) (V c main_arg4) :=
  (dat0 (F := Ideal) V c).arrAt_eq_of_cover 3 _ (fun t _ => flushed_eq V c t) covered

end Cert.KernelIdeal.LinearBlocks

end
-- ==== Proof.NormBlocks.lean ====
/-
  The second kernel region, read as a value: ten grid points each take 10000 rows of the aggregated features, rectify
  them, divide every row by its length (bounded below), and write the rows back. Rows are never split across points,
  so the row sums the body takes inside a block are the row sums of the whole array, and after the region the output
  array holds the row-normalized rectified array.
-/
import proofs.«422083_j9234179686472_4_alg».proof.Proof.Gen.KernelIdeal.Frame
import proofs.«422083_j9234179686472_4_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NormBlocks

open Cert.KernelIdeal Cert.KernelIdeal.Gen
open Idealize.ShloMosaic Idealize.ShloMosaic.TcCoe Idealize.SL.Sem Idealize.ShloMosaic.ValueIdx
open Idealize.ShloMosaic.Pipeline (Dat)
open Cert.Layer

-- the TensorCore's buffer contents when the region is entered: a parameter here
variable (V : (c : Dev nD) → (b : Ref sig .tc) → Buf (Elt Ideal) ((c : Thread nD τ).loc b))

/-! ## The body's arithmetic at an entry -/

theorem zeros : (![0, 0] : Fin 2 → Nat) = fun _ => 0 := funext fun a => by fin_cases a <;> rfl

/-- A vector of 10000 entries cast to a column reads, at `(p, 0)`, its entry `p`. -/
theorem cast_column {α : Type} (v : S10000.Idx → α) (p : Fin 10000) (u : Fin 1) :
    shapeCast S10000x1 v shapeCasts_S10000_S10000x1 (ix2 p u) = v (ix1 p) :=
  shapeCast_apply v _ _ _ (by
    have hu : u.val = 0 := by omega
    rw [Shape.rowMajor_val_one, Shape.rowMajor_val_two]
    show p.val = p.val * 1 + u.val
    omega)

/-- A column spread over 64 features reads, at `(p, q)`, its entry `(p, 0)`. -/
theorem spread_column {α : Type} (v : S10000x1.Idx → α) (p : Fin 10000) (q : Fin 64) :
    broadcastTo S10000x64 v broadcasts_S10000x1_S10000x64 (ix2 p q) = v (ix2 p (0 : Fin 1)) := by
  refine broadcastTo_apply v _ (ix2 p q) (ix2 p (0 : Fin 1)) fun ax => ?_
  match ax with
  | ⟨0, _⟩ =>
    show p.val = if (10000 : Nat) = 1 then 0 else p.val
    rw [if_neg (by decide)]
  | ⟨1, _⟩ => rfl

/-- The sum along the feature axis, started from zero, is the sum over the 64 features of the row. -/
theorem row_sum (v : FVec Ideal S10000x64 .f32) (p : Fin 10000) :
    multiReduction (F := Ideal) .add [1] S10000 v 0x00000000#32 reduces_S10000x64_S10000 (.inl rfl) rfl (ix1 p)
      = ∑ k : Fin 64, v (ix2 p k) := by
  refine (Ideal.multiReduction_add_single v 0x00000000#32 reduces_S10000x64_S10000 (.inl rfl) rfl (ix1 p)).trans ?_
  refine Finset.sum_congr rfl fun k _ => congrArg v ?_
  funext a
  apply Fin.ext
  match a with
  | ⟨0, _⟩ => rfl
  | ⟨1, _⟩ => rfl

/-- The body's rectified block. -/
def rectified (x : Vec Ideal S10000x64 .f32) : FVec Ideal S10000x64 .f32 :=
  select (cmpf .oge x (broadcast S10000x64 (Scalar.ofBits (F := Ideal) .f32 0x00000000#32))) x
    (mulf (broadcast S10000x64 (Scalar.ofBits (F := Ideal) .f32 0x3C23D70A#32)) x)

/-- At every entry it is the scalar rectifier. -/
theorem rectified_apply (x : Vec Ideal S10000x64 .f32) (i : S10000x64.Idx) : rectified x i = leaky (x i) := rfl

/-- The body's result at entry `(p, q)` of a block: the rectified entry over the rectified row's bounded length. -/
theorem body_apply (x : Vec Ideal S10000x64 .f32) (p : Fin 10000) (q : Fin 64) :
    k1_pay1 (F := Ideal) x (ix2 p q)
      = Ideal.div (leaky (x (ix2 p q)))
          (max (Ideal.sqrt (∑ k : Fin 64, leaky (x (ix2 p k)) * leaky (x (ix2 p k)))) minLength) := by
  unfold k1_pay1
  dsimp only
  rw [shapeCast_self]
  show Ideal.div (leaky (x (ix2 p q)))
      (broadcastTo S10000x64
        (maximumf
          (sqrt (shapeCast S10000x1
            (multiReduction (F := Ideal) .add [1] S10000 (mulf (rectified x) (rectified x)) 0x00000000#32
              reduces_S10000x64_S10000 (.inl rfl) rfl)
            shapeCasts_S10000_S10000x1))
          (broadcast S10000x1 (FloatOps.ofBits (F := Ideal) .f32 0x2B8CBCCC#32)))
        broadcasts_S10000x1_S10000x64 (ix2 p q)) = _
  rw [spread_column]
  show Ideal.div _
      (max (Ideal.sqrt (shapeCast S10000x1
          (multiReduction (F := Ideal) .add [1] S10000 (mulf (rectified x) (rectified x)) 0x00000000#32
            reduces_S10000x64_S10000 (.inl rfl) rfl)
          shapeCasts_S10000_S10000x1 (ix2 p (0 : Fin 1))))
        minLength) = _
  rw [cast_column, row_sum]
  rfl

/-! ## From blocks to the array -/

/-- The index maps, decided over the grid: at point `t` both windows sit on row block `t` and on the one feature block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem row_lt (t : Fin cfg1.N) (p : Fin 10000) : t.val * 10000 + p.val < 100000 := by
  have ht : t.val < 10 := lt_of_lt_of_eq t.isLt N_1
  have hp := p.isLt
  omega

/-- The row of the array that row `p` of point `t`'s block is. -/
def rowOf (t : Fin cfg1.N) (p : Fin 10000) : Fin 100000 := ⟨t.val * 10000 + p.val, row_lt t p⟩

/-- Where entry `(p, k)` of the input block at point `t` lies in the array. -/
theorem emb_in (t : Fin cfg1.N) (p : Fin 10000) (k : Fin 64) :
    ((cfg1.win 0).blk t).view.emb (ix2 p k) = ix2 (rowOf t p) k := by
  obtain ⟨e0, e1, -, -⟩ := idx_facts t
  funext a
  apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- Where entry `(p, q)` of the output block at point `t` lies in the array. -/
theorem emb_out (t : Fin cfg1.N) (p : Fin 10000) (q : Fin 64) :
    ((cfg1.win 1).blk t).view.emb (ix2 p q) = ix2 (rowOf t p) q := by
  obtain ⟨-, -, e2, e3⟩ := idx_facts t
  funext a
  apply Fin.ext
  match a with
  | ⟨0, _⟩ => show win1_1.index t (0 : Fin 2) * 10000 + 1 * p.val = t.val * 10000 + p.val; rw [e2]; omega
  | ⟨1, _⟩ => show win1_1.index t (1 : Fin 2) * 64 + 1 * q.val = q.val; rw [e3]; omega

/-- The input block at point `t` is rows `10000 t … 10000 t + 9999` of the array the region found. -/
theorem block_read (c : Dev nD) (t : Fin cfg1.N) (p : Fin 10000) (k : Fin 64) :
    (iblk1 V c 0 t : Vec Ideal S10000x64 .f32) (ix2 p k) = (V c main_v42 : S100000x64.Idx → EReal) (ix2 (rowOf t p) k) := by
  unfold iblk1
  rw [View.read_apply]
  exact congrArg (V c main_v42 : S100000x64.Idx → EReal) (emb_in t p k)

/-- WHAT POINT `t` WRITES BACK is its block of the normalized array. -/
theorem flushed_eq (c : Dev nD) (t : Fin cfg1.N) :
    (dat1 V c).flushed 1 t = ((cfg1.win 1).blk t).view.read (Elt Ideal) (normalize (V c main_v42)) := by
  show (cfg1.win 1).cut (grid1.coords t) ((dat1 V c).after 1 t) = _
  rw [after1_1]
  unfold out1_1
  rw [View.canon_unit_zero zeros]
  simp only [View.ld_unit_zero (S := S10000x64) zeros]
  funext y
  obtain ⟨p, q, rfl⟩ : ∃ (p : Fin 10000) (q : Fin 64), y = ix2 p q := ⟨y 0, y 1, eq_ix2 y⟩
  show k1_pay1 (F := Ideal) (iblk1 V c 0 t) (ix2 p q)
      = normalize (V c main_v42) (((cfg1.win 1).blk t).view.emb (ix2 p q))
  rw [body_apply, emb_out t p q, normalize_ix2]
  unfold normalizeAt rowLength rowSquares
  simp only [block_read V c t p]

/-- An index of the array is in point `t`'s output block iff each coordinate is in the block's range on its axis. -/
theorem mem_blk (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v43).slice (win1_1.rect t)).set ↔ _
  rw [View.set_slice_whole, Rect.mem_set_unit]
  exact Iff.rfl

/-- Every row of the array is in the block of the point its row block names. -/
theorem covered (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, e2, e3⟩ := idx_facts t
  have ht : t.val = (i 0).val / 10000 := rfl
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; rw [e2, ht]; omega
  | ⟨1, _⟩ => show win1_1.index t (1 : Fin 2) * 64 ≤ (i 1).val ∧ (i 1).val < win1_1.index t (1 : Fin 2) * 64 + 64; rw [e3]; omega

/-- After the second region its output array holds the normalization of the array the region entered with. -/
theorem arr_normalize (c : Dev nD) :
    (dat1 (F := Ideal) V c).arrAt 1 cfg1.N = Cert.Layer.normalize (V c main_v42) :=
  (dat1 V c).arrAt_eq_of_cover 1 (normalize (V c main_v42)) (fun t _ => flushed_eq V c t) covered

end Cert.KernelIdeal.NormBlocks

end
-- ==== Proof.Edges.lean ====
/-
  The sparse part of the layer: per-edge weights and the sum over incoming edges.

  An edge list gives, for each of 1280000 edges, a source node and a target node. The degree of a node is the number
  of edges it is the source of. An edge's weight is `(deg(source) · deg(target))^(-1/2) · exp(-dist²)`, and the
  aggregated feature of a node is the weighted sum, over the edges it is the source of, of the target node's feature
  row. Node numbers are read as jax reads them (a negative number counts from the end; the gather clamps, the scatter
  drops what is out of range): that behaviour is inside the host operations below and is never opened, because both
  programs apply exactly these operations to the same edge list. Only the feature array `h` differs in how it was
  computed, so the aggregation is stated as ONE function of the edge list, the distances and `h`.
-/
import Idealize.ShloMosaic.PureOps
import proofs.«422083_j9234179686472_4_alg».proof.Proof.Layer

noncomputable section

namespace Cert.Layer

open Idealize.ShloMosaic

variable {F : FTy → Type} [FloatOps F]

/-- The edge list: row 0 the sources, row 1 the targets. -/
abbrev EdgePairs : Shape := ⟨2, ![2, 1280000]⟩
/-- One row of it, still rank 2. -/
abbrev EdgeRow : Shape := ⟨2, ![1, 1280000]⟩
/-- One value per edge. -/
abbrev PerEdge : Shape := ⟨1, ![1280000]⟩
/-- The same as a column (the index operand of a gather or scatter). -/
abbrev EdgeCol : Shape := ⟨2, ![1280000, 1]⟩
/-- One feature row per edge. -/
abbrev EdgeFeat : Shape := ⟨2, ![1280000, 64]⟩
/-- One value per node. -/
abbrev PerNode : Shape := ⟨1, ![100000]⟩
/-- A scalar. -/
abbrev Single : Shape := ⟨0, ![]⟩

/-- Adding one number per edge into the entry of its node. -/
def countScatter : ScatterDims PerNode EdgeCol PerEdge where
  updateWindowDims := []
  insertedWindowDims := [0]
  scatterDimsToOperandDims := [0]
  indexVectorDim := 1
  wf := by decide

/-- Reading one number per edge from the entry of a node. -/
def countGather : GatherDims PerNode EdgeCol PerEdge where
  offsetDims := []
  collapsedSliceDims := [0]
  operandBatchingDims := []
  startIndicesBatchingDims := []
  startIndexMap := [0]
  indexVectorDim := 1
  sliceSizes := ![1]
  wf := by decide

/-- Reading one feature row per edge from the row of a node. -/
def rowGather : GatherDims Feat EdgeCol EdgeFeat where
  offsetDims := [1]
  collapsedSliceDims := [0]
  operandBatchingDims := []
  startIndicesBatchingDims := []
  startIndexMap := [0]
  indexVectorDim := 1
  sliceSizes := ![1, 64]
  wf := by decide

/-- Adding one feature row per edge into the row of its node. -/
def rowScatter : ScatterDims Feat EdgeCol EdgeFeat where
  updateWindowDims := [1]
  insertedWindowDims := [0]
  scatterDimsToOperandDims := [0]
  indexVectorDim := 1
  wf := by decide

/-- The source node of each edge. -/
def sources (e : IVec EdgePairs 32) : IVec PerEdge 32 :=
  shapeCast PerEdge (extractStridedSlice EdgeRow ![0, 0] e (by decide)) (by decide)

/-- The target node of each edge. -/
def targets (e : IVec EdgePairs 32) : IVec PerEdge 32 :=
  shapeCast PerEdge (extractStridedSlice EdgeRow ![1, 0] e (by decide)) (by decide)

/-- A node number below zero counts from the end. -/
def fromEnd (v : IVec PerEdge 32) : IVec PerEdge 32 :=
  select (cmpi .slt v (broadcastInDim PerEdge ![] (by decide) (constantI Single 32 0#32)))
    (addi v (broadcastInDim PerEdge ![] (by decide) (constantI Single 32 100000#32))) v

/-- One value per edge laid out as a column. -/
def column {α : Type} (v : PerEdge.Idx → α) : EdgeCol.Idx → α :=
  broadcastInDim EdgeCol ![0] (by decide) v

/-- How many edges each node is the source of. -/
def degree (e : IVec EdgePairs 32) : FVec F PerNode .f32 :=
  Host.scatterAdd countScatter (broadcastInDim PerNode ![] (by decide) (constant Single .f32 0x00000000#32))
    (column (sources e)) (broadcastInDim PerEdge ![] (by decide) (constant Single .f32 0x3F800000#32))

/-- The weight of each edge: the inverse square root of the product of its endpoints' degrees, times a Gaussian of
    its distance. -/
def edgeWeight (e : IVec EdgePairs 32) (d : FVec F PerEdge .f32) : FVec F PerEdge .f32 :=
  mulf
    (Host.powf
      (mulf (Host.gather countGather (degree (F := F) e) (column (fromEnd (sources e))))
        (Host.gather countGather (degree (F := F) e) (column (fromEnd (targets e)))))
      (broadcastInDim PerEdge ![] (by decide) (constant Single .f32 0xBF000000#32)))
    (Host.exp (Host.negf (mulf d d)))

/-- The weighted sum over each node's outgoing edges of the target's feature row. -/
def aggregate (e : IVec EdgePairs 32) (d : FVec F PerEdge .f32) (h : FVec F Feat .f32) : FVec F Feat .f32 :=
  Host.scatterAdd rowScatter (broadcastInDim Feat ![] (by decide) (constant Single .f32 0x00000000#32))
    (column (sources e))
    (mulf (broadcastInDim EdgeFeat ![0, 1] (by decide) (column (edgeWeight e d)))
      (Host.gather rowGather h (column (fromEnd (targets e)))))

end Cert.Layer

end
-- ==== Proof.KernelValue.lean ====
/-
  The kernel program's result as a value. Its @main is a stretch of host operations (the edge endpoints, the degrees,
  the edge weights), the first kernel region (the linear map), a second stretch (the gather of the mapped rows, their
  weighting, the sum into the source nodes), and the second kernel region (the row normalization), whose output is
  the result. Each host stretch is read at the buffers the next segment consumes, over an arbitrary starting contents,
  so that the boundary contents are never opened; the regions' arrays are what their write-backs leave. Composed, the
  result buffer ends at the normalization of the aggregation of the linear map of the arguments as launched.
-/
import proofs.«422083_j9234179686472_4_alg».proof.Proof.KernelRun
import proofs.«422083_j9234179686472_4_alg».proof.Proof.LinearBlocks
import proofs.«422083_j9234179686472_4_alg».proof.Proof.NormBlocks
import proofs.«422083_j9234179686472_4_alg».proof.Proof.Edges
import Idealize.ShloMosaic.Lib.StableHlo.Run

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo
open Cert.Layer

variable {F : FTy → Type} [FloatOps F]

/-! ## The aggregation from its pieces -/

/-- The weighted sum over each node's outgoing edges, from the endpoints, the weights and the feature rows. -/
def aggregateFrom (s t : IVec PerEdge 32) (wt : FVec F PerEdge .f32) (h : FVec F Feat .f32) : FVec F Feat .f32 :=
  Host.scatterAdd rowScatter (broadcastInDim Feat ![] (by decide) (constant Single .f32 0x00000000#32))
    (column s)
    (mulf (broadcastInDim EdgeFeat ![0, 1] (by decide) (column wt)) (Host.gather rowGather h (column (fromEnd t))))

theorem aggregate_eq (e : IVec EdgePairs 32) (d : FVec F PerEdge .f32) (h : FVec F Feat .f32) :
    aggregate e d h = aggregateFrom (sources e) (targets e) (edgeWeight e d) h := rfl

/-! ## The host stretches, over arbitrary contents -/

/-- The second stretch leaves, in the buffer the second region reads, the aggregation of what it found. -/
theorem between (X : Valuation τ sig (Elt F)) :
    after hostOps1 X (Proc.devRef .tc main_v42)
      = aggregateFrom (X (Proc.devRef .tc main_v1)) (X (Proc.devRef .tc main_v3)) (X (Proc.devRef .tc main_v28))
          (X (Proc.devRef .tc main_v29)) := by
  after_results_simp
  rfl

/-- The first stretch leaves the sources, -/
theorem first_sources (Y : Valuation τ sig (Elt F)) :
    after hostOps0 Y (Proc.devRef .tc main_v1) = sources (Y (Proc.devRef .tc main_arg1)) := by
  after_results_simp
  rfl

/-- the targets, -/
theorem first_targets (Y : Valuation τ sig (Elt F)) :
    after hostOps0 Y (Proc.devRef .tc main_v3) = targets (Y (Proc.devRef .tc main_arg1)) := by
  after_results_simp
  rfl

/-- and the edge weights. -/
theorem first_weights (Y : Valuation τ sig (Elt F)) :
    after hostOps0 Y (Proc.devRef .tc main_v28)
      = edgeWeight (Y (Proc.devRef .tc main_arg1)) (Y (Proc.devRef .tc main_arg2)) := by
  after_results_simp
  rfl

/-- The first stretch writes no argument. -/
theorem first_arg0 (Y : Valuation τ sig (Elt F)) :
    after hostOps0 Y (Proc.devRef .tc main_arg0) = Y (Proc.devRef .tc main_arg0) := by
  after_results_simp
theorem first_arg3 (Y : Valuation τ sig (Elt F)) :
    after hostOps0 Y (Proc.devRef .tc main_arg3) = Y (Proc.devRef .tc main_arg3) := by
  after_results_simp
theorem first_arg4 (Y : Valuation τ sig (Elt F)) :
    after hostOps0 Y (Proc.devRef .tc main_arg4) = Y (Proc.devRef .tc main_arg4) := by
  after_results_simp

/-! ## The boundary contents read back to the launch memory -/

section Boundaries

variable (m : (ℓ : Loc nD τ sig) → Buf (Elt Ideal) ℓ) (ρ : Dev nD → PrngReg)

/-- The first region enters with the three dense arguments as launched. -/
theorem entry_arg0 (c : Dev nD) : V1 m ρ c main_arg0 = m ((c : Thread nD τ).loc main_arg0) :=
  first_arg0 (W0 m ρ c)
theorem entry_arg3 (c : Dev nD) : V1 m ρ c main_arg3 = m ((c : Thread nD τ).loc main_arg3) :=
  first_arg3 (W0 m ρ c)
theorem entry_arg4 (c : Dev nD) : V1 m ρ c main_arg4 = m ((c : Thread nD τ).loc main_arg4) :=
  first_arg4 (W0 m ρ c)

/-- After the first region its output holds the linear map of the arguments. -/
theorem mapped (c : Dev nD) :
    W2 m ρ c (Proc.devRef .tc main_v29)
      = linear (m ((c : Thread nD τ).loc main_arg0)) (m ((c : Thread nD τ).loc main_arg3)) (m ((c : Thread nD τ).loc main_arg4)) :=
  ((W2_arr m ρ c 3).trans (LinearBlocks.arr_linear (V1 m ρ) c)).trans (by
    rw [entry_arg0 m ρ c, entry_arg3 m ρ c, entry_arg4 m ρ c])

/-- The first region leaves the endpoints and the weights as the first stretch made them. -/
theorem kept_sources (c : Dev nD) :
    W2 m ρ c (Proc.devRef .tc main_v1) = sources (m ((c : Thread nD τ).loc main_arg1)) :=
  (W2_of_ne m ρ c main_v1 (by decide)).trans (first_sources (W0 m ρ c))
theorem kept_targets (c : Dev nD) :
    W2 m ρ c (Proc.devRef .tc main_v3) = targets (m ((c : Thread nD τ).loc main_arg1)) :=
  (W2_of_ne m ρ c main_v3 (by decide)).trans (first_targets (W0 m ρ c))
theorem kept_weights (c : Dev nD) :
    W2 m ρ c (Proc.devRef .tc main_v28)
      = edgeWeight (F := Ideal) (m ((c : Thread nD τ).loc main_arg1)) (m ((c : Thread nD τ).loc main_arg2)) :=
  (W2_of_ne m ρ c main_v28 (by decide)).trans (first_weights (W0 m ρ c))

/-- The second region enters with the aggregation of the mapped features. -/
theorem aggregated (c : Dev nD) :
    V3 m ρ c main_v42
      = aggregate (F := Ideal) (m ((c : Thread nD τ).loc main_arg1)) (m ((c : Thread nD τ).loc main_arg2))
          (linear (m ((c : Thread nD τ).loc main_arg0)) (m ((c : Thread nD τ).loc main_arg3)) (m ((c : Thread nD τ).loc main_arg4))) := by
  show after hostOps1 (W2 m ρ c) (Proc.devRef .tc main_v42) = _
  rw [between, aggregate_eq, mapped m ρ c, kept_sources m ρ c, kept_targets m ρ c, kept_weights m ρ c]

/-- THE RESULT: the last boundary's contents at the result buffer. -/
theorem result_eq (c : Dev nD) :
    W4 m ρ c (Proc.devRef .tc main_v43)
      = Cert.Layer.normalize (aggregate (F := Ideal) (m ((c : Thread nD τ).loc main_arg1)) (m ((c : Thread nD τ).loc main_arg2))
          (linear (m ((c : Thread nD τ).loc main_arg0)) (m ((c : Thread nD τ).loc main_arg3)) (m ((c : Thread nD τ).loc main_arg4)))) :=
  ((W4_arr m ρ c 1).trans (NormBlocks.arr_normalize (V3 m ρ) c)).trans (congrArg Cert.Layer.normalize (aggregated m ρ c))

/-- The run, read: the result buffer at the layer's value of the arguments, the arguments unchanged. -/
theorem run : θ_run defs (onTc (τ := τ) (main (F := Ideal))) ⟨m, fun _ => 0, ρ⟩ (fun r => ∀ c : Dev nD,
      r.2.mem ((c.tc : Thread nD τ).loc main_v43)
          = Cert.Layer.normalize (aggregate (F := Ideal) (m ((c : Thread nD τ).loc main_arg1)) (m ((c : Thread nD τ).loc main_arg2))
              (linear (m ((c : Thread nD τ).loc main_arg0)) (m ((c : Thread nD τ).loc main_arg3)) (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_out m ρ)

end Boundaries

end Cert.KernelIdeal.Value

end
-- ==== Proof.RefStages.lean ====
/-
  The reference's computation in three stages. First the dense linear map `x · wᵀ + b` as the host computes it: a
  transpose of the weights, a matrix product contracting the feature axis, the bias broadcast over the rows. Then the
  edge aggregation (stated once for both programs, in Edges). Last the rectifier and the division of each row by its
  length: the host compares with zero, scales by the slope, selects, squares, sums along the feature axis starting
  from zero, takes the square root, bounds it below, broadcasts it back over the row and divides.

  The stages are the printed operations composed, nothing more; what each is at an index is shown elsewhere.
-/
import proofs.«422083_j9234179686472_4_alg».proof.ReferenceIdeal
import proofs.«422083_j9234179686472_4_alg».proof.Proof.Gen.ReferenceIdeal

noncomputable section

namespace Cert.ReferenceIdeal.Stages

open Idealize.ShloMosaic Cert.ReferenceIdeal
open Cert.ReferenceIdeal.Facts₀ Cert.ReferenceIdeal.Facts

variable {F : FTy → Type} [FloatOps F]

/-- The host's `x · wᵀ + b`. -/
def head (x : FVec F S100000x64 .f32) (w : FVec F S64x64 .f32) (b : FVec F S64 .f32) : FVec F S100000x64 .f32 :=
  addf
    (Host.dotGeneral dot_S100000x64_S64x64_S100000x64_1_0_0_1_n_n none x
      (transpose S64x64 [1, 0] w transposes_S64x64_S64x64_1_0))
    (broadcastInDim S100000x64 ![0, 1] bcast_S1x64_S100000x64_0_1 (broadcastInDim S1x64 ![1] bcast_S64_S1x64_1 b))

/-- The host's leaky rectifier. -/
def rectify (a : FVec F S100000x64 .f32) : FVec F S100000x64 .f32 :=
  select (cmpf .oge a (broadcastInDim S100000x64 ![] bcast_S_S100000x64 (constant S_ .f32 0x00000000#32))) a
    (mulf (broadcastInDim S100000x64 ![] bcast_S_S100000x64 (constant S_ .f32 0x3C23D70A#32)) a)

/-- The host's length of each rectified row, as a column. -/
def lengths (r : FVec F S100000x64 .f32) : FVec F S100000x1 .f32 :=
  Host.sqrt (broadcastInDim S100000x1 ![0] bcast_S100000_S100000x1_0
    (Host.reduceAdd (mulf r r) (constant S_ .f32 0x00000000#32) reducesTo_S100000x64_S100000_d1 h_S_))

/-- The host's rectifier and row normalization. -/
def tail (a : FVec F S100000x64 .f32) : FVec F S100000x64 .f32 :=
  Host.divf (rectify a)
    (broadcastInDim S100000x64 ![0, 1] bcast_S100000x1_S100000x64_0_1
      (maximumf (lengths (rectify a))
        (broadcastInDim S100000x1 ![] bcast_S_S100000x1 (constant S_ .f32 0x2B8CBCCC#32))))

end Cert.ReferenceIdeal.Stages

end
-- ==== Proof.RefRun.lean ====
/-
  The reference's run. Its @main is a straight line of host operations, two of them calls of small functions whose
  bodies are run in place; every weakly fair execution ends with each buffer at the composition of the operations
  that wrote it. Read at the result buffer, that composition is the three stages: the linear map, the edge
  aggregation, the row normalization, applied to the argument arrays as launched; the arguments are never written.
-/
import proofs.«422083_j9234179686472_4_alg».proof.Proof.RefStages
import proofs.«422083_j9234179686472_4_alg».proof.Proof.Edges
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls run in place. The first fifty-eight are @main's own statements.
    The rectifier's seven follow over its call's buffers: the zero and its broadcast, the comparison with it, the slope converted to
    its own type and broadcast, the scaled copy, and the selection between the row and its scaled copy, which is the
    body of the function the rectifier itself calls. The row length's five follow over the second call's buffers:
    the squares, the zero the sum starts from, the sum along the feature axis, the sums as a column, the square
    root. The last five are @main's own again: the lower bound and its broadcast, the maximum, its broadcast over
    the row, the division. -/
abbrev ops : List (HloOp τ sig (Elt F)) :=
  [
    unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg1 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_cst (constant S_ .f32 0x3F800000#32),
    unary main_cst main_v4 (broadcastInDim S1280000 ![] bcast_S_S1280000 : (⟨S_, .f32⟩ : BufTy).Contents (Elt F) → (⟨S1280000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1280000x1 ![0] bcast_S1280000_S1280000x1_0 : (⟨S1280000, .i32⟩ : BufTy).Contents (Elt F) → (⟨S1280000x1, .i32⟩ : BufTy).Contents (Elt F)),
    ternary main_v5 main_v6 main_v4 main_v7 ((fun x i u => Host.scatterAdd scatter_S100000_S1280000x1_S1280000_n_0_0_1 x i u) : (⟨S100000, .f32⟩ : BufTy).Contents (Elt F) → (⟨S1280000x1, .i32⟩ : BufTy).Contents (Elt F) → (⟨S1280000, .f32⟩ : BufTy).Contents (Elt F) → (⟨S100000, .f32⟩ : BufTy).Contents (Elt F)),
    nullary main_c (constantI S_ 32 0#32),
    unary main_c main_v8 (broadcastInDim S1280000 ![] bcast_S_S1280000 : (⟨S_, .i32⟩ : BufTy).Contents (Elt F) → (⟨S1280000, .i32⟩ : BufTy).Contents (Elt F)),
    binary main_v1 main_v8 main_v9 (cmpi .slt : (⟨S1280000, .i32⟩ : BufTy).Contents (Elt F) → (⟨S1280000, .i32⟩ : BufTy).Contents (Elt F) → (⟨S1280000, .i1⟩ : BufTy).Contents (Elt F)),
    nullary main_c_1 (constantI S_ 32 100000#32),
    unary main_c_1 main_v10 (broadcastInDim S1280000 ![] bcast_S_S1280000 : (⟨S_, .i32⟩ : BufTy).Contents (Elt F) → (⟨S1280000, .i32⟩ : BufTy).Contents (Elt F)),
    binary main_v1 main_v10 main_v11 (addi : (⟨S1280000, .i32⟩ : BufTy).Contents (Elt F) → (⟨S1280000, .i32⟩ : BufTy).Contents (Elt F) → (⟨S1280000, .i32⟩ : BufTy).Contents (Elt F)),
    ternary main_v9 main_v11 main_v1 main_v12 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v12 main_v13 (broadcastInDim S1280000x1 ![0] bcast_S1280000_S1280000x1_0 : (⟨S1280000, .i32⟩ : BufTy).Contents (Elt F) → (⟨S1280000x1, .i32⟩ : BufTy).Contents (Elt F)),
    binary main_v7 main_v13 main_v14 ((fun x i => Host.gather gather_S100000_S1280000x1_S1280000_n_0_n_n_0_1_1 x i) : (⟨S100000, .f32⟩ : BufTy).Contents (Elt F) → (⟨S1280000x1, .i32⟩ : BufTy).Contents (Elt F) → (⟨S1280000, .f32⟩ : BufTy).Contents (Elt F)),
    nullary main_c_2 (constantI S_ 32 0#32),
    unary main_c_2 main_v15 (broadcastInDim S1280000 ![] bcast_S_S1280000 : (⟨S_, .i32⟩ : BufTy).Contents (Elt F) → (⟨S1280000, .i32⟩ : BufTy).Contents (Elt F)),
    binary main_v3 main_v15 main_v16 (cmpi .slt : (⟨S1280000, .i32⟩ : BufTy).Contents (Elt F) → (⟨S1280000, .i32⟩ : BufTy).Contents (Elt F) → (⟨S1280000, .i1⟩ : BufTy).Contents (Elt F)),
    nullary main_c_3 (constantI S_ 32 100000#32),
    unary main_c_3 main_v17 (broadcastInDim S1280000 ![] bcast_S_S1280000 : (⟨S_, .i32⟩ : BufTy).Contents (Elt F) → (⟨S1280000, .i32⟩ : BufTy).Contents (Elt F)),
    binary main_v3 main_v17 main_v18 (addi : (⟨S1280000, .i32⟩ : BufTy).Contents (Elt F) → (⟨S1280000, .i32⟩ : BufTy).Contents (Elt F) → (⟨S1280000, .i32⟩ : BufTy).Contents (Elt F)),
    ternary main_v16 main_v18 main_v3 main_v19 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v19 main_v20 (broadcastInDim S1280000x1 ![0] bcast_S1280000_S1280000x1_0 : (⟨S1280000, .i32⟩ : BufTy).Contents (Elt F) → (⟨S1280000x1, .i32⟩ : BufTy).Contents (Elt F)),
    binary main_v7 main_v20 main_v21 ((fun x i => Host.gather gather_S100000_S1280000x1_S1280000_n_0_n_n_0_1_1 x i) : (⟨S100000, .f32⟩ : BufTy).Contents (Elt F) → (⟨S1280000x1, .i32⟩ : BufTy).Contents (Elt F) → (⟨S1280000, .f32⟩ : BufTy).Contents (Elt F)),
    binary main_v14 main_v21 main_v22 (mulf : (⟨S1280000, .f32⟩ : BufTy).Contents (Elt F) → (⟨S1280000, .f32⟩ : BufTy).Contents (Elt F) → (⟨S1280000, .f32⟩ : BufTy).Contents (Elt F)),
    nullary main_cst_4 (constant S_ .f32 0xBF000000#32),
    unary main_cst_4 main_v23 (broadcastInDim S1280000 ![] bcast_S_S1280000 : (⟨S_, .f32⟩ : BufTy).Contents (Elt F) → (⟨S1280000, .f32⟩ : BufTy).Contents (Elt F)),
    binary main_v22 main_v23 main_v24 (Host.powf : (⟨S1280000, .f32⟩ : BufTy).Contents (Elt F) → (⟨S1280000, .f32⟩ : BufTy).Contents (Elt F) → (⟨S1280000, .f32⟩ : BufTy).Contents (Elt F)),
    binary main_arg2 main_arg2 main_v25 (mulf : (⟨S1280000, .f32⟩ : BufTy).Contents (Elt F) → (⟨S1280000, .f32⟩ : BufTy).Contents (Elt F) → (⟨S1280000, .f32⟩ : BufTy).Contents (Elt F)),
    unary main_v25 main_v26 (Host.negf : (⟨S1280000, .f32⟩ : BufTy).Contents (Elt F) → (⟨S1280000, .f32⟩ : BufTy).Contents (Elt F)),
    unary main_v26 main_v27 (Host.exp : (⟨S1280000, .f32⟩ : BufTy).Contents (Elt F) → (⟨S1280000, .f32⟩ : BufTy).Contents (Elt F)),
    binary main_v24 main_v27 main_v28 (mulf : (⟨S1280000, .f32⟩ : BufTy).Contents (Elt F) → (⟨S1280000, .f32⟩ : BufTy).Contents (Elt F) → (⟨S1280000, .f32⟩ : BufTy).Contents (Elt F)),
    unary main_arg3 main_v29 ((transpose S64x64 [1, 0] · transposes_S64x64_S64x64_1_0) : (⟨S64x64, .f32⟩ : BufTy).Contents (Elt F) → (⟨S64x64, .f32⟩ : BufTy).Contents (Elt F)),
    binary main_arg0 main_v29 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)),
    binary main_v30 main_v32 main_v33 (addf : (⟨S100000x64, .f32⟩ : BufTy).Contents (Elt F) → (⟨S100000x64, .f32⟩ : BufTy).Contents (Elt F) → (⟨S100000x64, .f32⟩ : BufTy).Contents (Elt F)),
    unary main_v28 main_v34 (broadcastInDim S1280000x1 ![0] bcast_S1280000_S1280000x1_0 : (⟨S1280000, .f32⟩ : BufTy).Contents (Elt F) → (⟨S1280000x1, .f32⟩ : BufTy).Contents (Elt F)),
    nullary main_c_5 (constantI S_ 32 0#32),
    unary main_c_5 main_v35 (broadcastInDim S1280000 ![] bcast_S_S1280000 : (⟨S_, .i32⟩ : BufTy).Contents (Elt F) → (⟨S1280000, .i32⟩ : BufTy).Contents (Elt F)),
    binary main_v3 main_v35 main_v36 (cmpi .slt : (⟨S1280000, .i32⟩ : BufTy).Contents (Elt F) → (⟨S1280000, .i32⟩ : BufTy).Contents (Elt F) → (⟨S1280000, .i1⟩ : BufTy).Contents (Elt F)),
    nullary main_c_6 (constantI S_ 32 100000#32),
    unary main_c_6 main_v37 (broadcastInDim S1280000 ![] bcast_S_S1280000 : (⟨S_, .i32⟩ : BufTy).Contents (Elt F) → (⟨S1280000, .i32⟩ : BufTy).Contents (Elt F)),
    binary main_v3 main_v37 main_v38 (addi : (⟨S1280000, .i32⟩ : BufTy).Contents (Elt F) → (⟨S1280000, .i32⟩ : BufTy).Contents (Elt F) → (⟨S1280000, .i32⟩ : BufTy).Contents (Elt F)),
    ternary main_v36 main_v38 main_v3 main_v39 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v39 main_v40 (broadcastInDim S1280000x1 ![0] bcast_S1280000_S1280000x1_0 : (⟨S1280000, .i32⟩ : BufTy).Contents (Elt F) → (⟨S1280000x1, .i32⟩ : BufTy).Contents (Elt F)),
    binary main_v33 main_v40 main_v41 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    unary main_v34 main_v42 (broadcastInDim S1280000x64 ![0, 1] bcast_S1280000x1_S1280000x64_0_1 : (⟨S1280000x1, .f32⟩ : BufTy).Contents (Elt F) → (⟨S1280000x64, .f32⟩ : BufTy).Contents (Elt F)),
    binary main_v42 main_v41 main_v43 (mulf : (⟨S1280000x64, .f32⟩ : BufTy).Contents (Elt F) → (⟨S1280000x64, .f32⟩ : BufTy).Contents (Elt F) → (⟨S1280000x64, .f32⟩ : BufTy).Contents (Elt F)),
    nullary main_cst_7 (constant S_ .f32 0x00000000#32),
    unary main_cst_7 main_v44 (broadcastInDim S100000x64 ![] bcast_S_S100000x64 : (⟨S_, .f32⟩ : BufTy).Contents (Elt F) → (⟨S100000x64, .f32⟩ : BufTy).Contents (Elt F)),
    unary main_v1 main_v45 (broadcastInDim S1280000x1 ![0] bcast_S1280000_S1280000x1_0 : (⟨S1280000, .i32⟩ : BufTy).Contents (Elt F) → (⟨S1280000x1, .i32⟩ : BufTy).Contents (Elt F)),
    ternary main_v44 main_v45 main_v43 main_v46 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)),
    nullary main_cst_8 (constant S_ .f32 0x3C23D70A#32),
    TRef.nullary main_call0.cst (constant S_ .f32 0x00000000#32),
    TRef.unary main_call0.cst main_call0.v0 (broadcastInDim S100000x64 ![] bcast_S_S100000x64),
    TRef.binary (.of main_v46) main_call0.v0 main_call0.v1 (cmpf .oge),
    TRef.unary (.of main_cst_8) main_call0.v2 id,
    TRef.unary main_call0.v2 main_call0.v3 (broadcastInDim S100000x64 ![] bcast_S_S100000x64),
    TRef.binary main_call0.v3 (.of main_v46) main_call0.v4 mulf,
    TRef.ternary main_call0.v1 (.of main_v46) main_call0.v4 main_call0.call0.v0 select,
    TRef.binary (.of main_v47) (.of main_v47) main_call1.v0 mulf,
    TRef.nullary main_call1.cst (constant S_ .f32 0x00000000#32),
    TRef.binary main_call1.v0 main_call1.cst main_call1.v1 (fun x v => Host.reduceAdd x v reducesTo_S100000x64_S100000_d1 h_S_),
    TRef.unary main_call1.v1 main_call1.v2 (broadcastInDim S100000x1 ![0] bcast_S100000_S100000x1_0),
    TRef.unary main_call1.v2 main_call1.v3 Host.sqrt,
    nullary main_cst_9 (constant S_ .f32 0x2B8CBCCC#32),
    unary main_cst_9 main_v49 (broadcastInDim S100000x1 ![] bcast_S_S100000x1 : (⟨S_, .f32⟩ : BufTy).Contents (Elt F) → (⟨S100000x1, .f32⟩ : BufTy).Contents (Elt F)),
    binary main_v48 main_v49 main_v50 (maximumf : (⟨S100000x1, .f32⟩ : BufTy).Contents (Elt F) → (⟨S100000x1, .f32⟩ : BufTy).Contents (Elt F) → (⟨S100000x1, .f32⟩ : BufTy).Contents (Elt F)),
    unary main_v50 main_v51 (broadcastInDim S100000x64 ![0, 1] bcast_S100000x1_S100000x64_0_1 : (⟨S100000x1, .f32⟩ : BufTy).Contents (Elt F) → (⟨S100000x64, .f32⟩ : BufTy).Contents (Elt F)),
    binary main_v47 main_v51 main_v52 (Host.divf : (⟨S100000x64, .f32⟩ : BufTy).Contents (Elt F) → (⟨S100000x64, .f32⟩ : BufTy).Contents (Elt F) → (⟨S100000x64, .f32⟩ : BufTy).Contents (Elt F)) ]

/-- @main is that straight line: its two windows, the three functions' definitions unfolded at their calls and
    the call records at their fields; a host step followed by a continuation is by definition the step with the
    continuation pushed inside, so both sides compute to one chain of host steps. -/
theorem main_eq (c : Dev nD) : main (F := F) c = seq ops := by
  unfold main main_part0 main_part1 fn_leaky_relu.body fn_norm.body fn_where.body
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub ..⟩

/-- The fold read at the result buffer is the three stages. One pass rewrites each operation's result at the
    buffer it writes to its function's value and at any other buffer to what was there, every shared intermediate
    visited once; what is left is the operations composed over the argument buffers' contents, which is the three
    stages by unfolding their definitions (the typed references' casts are the identity at these literal
    references, and the slope's conversion to its own type is the identity). -/
theorem out_eq (V : Valuation τ sig (Elt F)) :
    after ops V (Proc.devRef .tc main_v52)
      = Stages.tail (Cert.Layer.aggregate (V (Proc.devRef .tc main_arg1)) (V (Proc.devRef .tc main_arg2))
          (Stages.head (V (Proc.devRef .tc main_arg0)) (V (Proc.devRef .tc main_arg3)) (V (Proc.devRef .tc main_arg4)))) := by
  after_results_simp
  rfl

/-- No operation writes argument 0: it still holds what it was launched with. -/
theorem arg0_eq (V : Valuation τ sig (Elt F)) :
    after ops V (Proc.devRef .tc main_arg0) = V (Proc.devRef .tc main_arg0) := by
  after_results_simp

/-- No operation writes argument 1: it still holds what it was launched with. -/
theorem arg1_eq (V : Valuation τ sig (Elt F)) :
    after ops V (Proc.devRef .tc main_arg1) = V (Proc.devRef .tc main_arg1) := by
  after_results_simp

/-- No operation writes argument 2: it still holds what it was launched with. -/
theorem arg2_eq (V : Valuation τ sig (Elt F)) :
    after ops V (Proc.devRef .tc main_arg2) = V (Proc.devRef .tc main_arg2) := by
  after_results_simp

/-- No operation writes argument 3: it still holds what it was launched with. -/
theorem arg3_eq (V : Valuation τ sig (Elt F)) :
    after ops V (Proc.devRef .tc main_arg3) = V (Proc.devRef .tc main_arg3) := by
  after_results_simp

/-- No operation writes argument 4: it still holds what it was launched with. -/
theorem arg4_eq (V : Valuation τ sig (Elt F)) :
    after ops V (Proc.devRef .tc main_arg4) = V (Proc.devRef .tc main_arg4) := by
  after_results_simp

/-- From any memory with zero counters every weakly fair execution of @main terminates with the result at the three
    stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = Stages.tail (Cert.Layer.aggregate (m ((c.tc : Thread nD τ).loc main_arg1)) (m ((c.tc : Thread nD τ).loc main_arg2))
              (Stages.head (m ((c.tc : Thread nD τ).loc main_arg0)) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v52).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.HandRun

end
-- ==== Proof.RefValue.lean ====
/-
  The reference's two dense stages at an index. The host's matrix product with the transposed weights, read at
  `(n, j)`, is the sum over `k` of `x[n, k] · w[j, k]`, and the broadcast bias adds `b[j]`: the linear map. The host's
  rectifier is the scalar rectifier at every entry; its sum of squares along the feature axis, started from zero, is
  the row's sum of squares; the square root, the lower bound and the division are the scalar ones: the row
  normalization.
-/
import proofs.«422083_j9234179686472_4_alg».proof.Proof.RefStages
import proofs.«422083_j9234179686472_4_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Idealize.ShloMosaic Idealize.ShloMosaic.ValueIdx

open Cert.ReferenceIdeal.Facts₀ Cert.ReferenceIdeal.Facts

/-! ## The linear map -/

/-- The left operand's row coordinate is the output's row coordinate. -/
theorem lhs_dot_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- The left operand's feature coordinate is the contraction position. -/
theorem lhs_dot_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

/-- The right operand's first coordinate is the contraction position. -/
theorem rhs_dot_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

/-- The right operand's second coordinate is the output's column coordinate. -/
theorem rhs_dot_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The host's matrix product at `(n, j)`: row `n` of the left operand against column `j` of the right. -/
theorem dot_apply (x : FVec Ideal S100000x64 .f32) (y : FVec Ideal S64x64 .f32) (n : Fin 100000) (j : Fin 64) :
    Host.dotGeneral (F := Ideal) dot_S100000x64_S64x64_S100000x64_1_0_0_1_n_n none x y (ix2 n j)
      = ∑ k : Fin 64, x (ix2 n k) * y (ix2 k j) := by
  simp only [Host.dotGeneral]
  rw [Ideal.dotGeneral_apply,
    ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n j)
      ((contrEquiv1 dot_S100000x64_S64x64_S100000x64_1_0_0_1_n_n 64 rfl rfl).symm k) = ix2 n k :=
    funext fun a => Fin.ext (by
      match a with
      | ⟨0, _⟩ => exact lhs_dot_0 _ _
      | ⟨1, _⟩ => exact (lhs_dot_1 _ _).trans hk)
  have er : dot_S100000x64_S64x64_S100000x64_1_0_0_1_n_n.rhsIdx (ix2 n j)
      ((contrEquiv1 dot_S100000x64_S64x64_S100000x64_1_0_0_1_n_n 64 rfl rfl).symm k) = ix2 k j :=
    funext fun a => Fin.ext (by
      match a with
      | ⟨0, _⟩ => exact (rhs_dot_0 _ _).trans hk
      | ⟨1, _⟩ => exact rhs_dot_1 _ _)
  rw [el, er]

/-- The transposed weights at `(k, j)` are the weights at `(j, k)`. -/
theorem transpose_wt_apply (w : FVec Ideal S64x64 .f32) (k j : Fin 64) :
    transpose S64x64 [1, 0] w transposes_S64x64_S64x64_1_0 (ix2 k j) = w (ix2 j k) :=
  transpose_apply _ _ _ _ _ (fun b => by match b with | ⟨0, _⟩ => rfl | ⟨1, _⟩ => rfl)

/-- The bias laid out as a row and broadcast over the rows reads `b j` at `(n, j)`. -/
theorem bias_apply (b : FVec Ideal S64 .f32) (n : Fin 100000) (j : Fin 64) :
    broadcastInDim S100000x64 ![0, 1] bcast_S1x64_S100000x64_0_1 (broadcastInDim S1x64 ![1] bcast_S64_S1x64_1 b) (ix2 n j)
      = b (ix1 j) := by
  refine (broadcastInDim_apply _ _ _ _ (ix2 (0 : Fin 1) j)
    (fun a => by match a with | ⟨0, _⟩ => rfl | ⟨1, _⟩ => rfl)).trans ?_
  exact broadcastInDim_apply _ _ _ _ (ix1 j) (fun a => by match a with | ⟨0, _⟩ => rfl)

/-- The host's `x · wᵀ + b` is the linear map. -/
theorem head_eq (x : FVec Ideal S100000x64 .f32) (w : FVec Ideal S64x64 .f32) (b : FVec Ideal S64 .f32) :
    head (F := Ideal) x w b = Cert.Layer.linear x w b := by
  funext i
  obtain ⟨n, j, rfl⟩ : ∃ (n : Fin 100000) (j : Fin 64), i = ix2 n j := ⟨i 0, i 1, eq_ix2 i⟩
  rw [Cert.Layer.linear_ix2]
  unfold head Cert.Layer.linearAt
  rw [addf_apply, dot_apply, bias_apply]
  refine congrArg (· + b (ix1 j)) (Finset.sum_congr rfl fun k _ => ?_)
  exact congrArg (x (ix2 n k) * ·) (transpose_wt_apply w k j)

/-! ## The rectifier -/

/-- A scalar broadcast over the feature array reads the scalar at every entry. -/
theorem bcast_scalar_feat (c : FVec Ideal S_ .f32) (n : Fin 100000) (j : Fin 64) :
    broadcastInDim S100000x64 ![] bcast_S_S100000x64 c (ix2 n j) = c ix0 :=
  broadcastInDim_apply _ _ _ _ _ (fun a => a.elim0)

/-- The host's rectifier at an entry is the scalar rectifier of that entry. -/
theorem rectify_apply (a : FVec Ideal S100000x64 .f32) (n : Fin 100000) (j : Fin 64) :
    rectify (F := Ideal) a (ix2 n j) = Cert.Layer.leaky (a (ix2 n j)) := by
  unfold rectify Cert.Layer.leaky
  rw [select_apply, cmpf_apply, mulf_apply, bcast_scalar_feat, bcast_scalar_feat, constant_apply, constant_apply]
  rfl

/-! ## The row lengths -/

/-- The host's square root at an index is the square root of the element. -/
theorem hostSqrt_apply {s : Shape} (x : FVec Ideal s .f32) (i : s.Idx) :
    Host.sqrt (F := Ideal) x i = Ideal.sqrt (x i) := rfl

/-- The host's division at an index is the division of the elements. -/
theorem hostDivf_apply {s : Shape} (x y : FVec Ideal s .f32) (i : s.Idx) :
    Host.divf (F := Ideal) x y i = Ideal.div (x i) (y i) := rfl

/-- The host's sum along the feature axis, started from the zero word, is the sum of the row's entries. -/
theorem rowsum_apply (v : FVec Ideal S100000x64 .f32) (n : Fin 100000) :
    Host.reduceAdd (F := Ideal) v (constant (F := Ideal) S_ .f32 0x00000000#32)
        reducesTo_S100000x64_S100000_d1 h_S_ (ix1 n)
      = ∑ k : Fin 64, v (ix2 n k) := by
  unfold Host.reduceAdd
  show Ideal.hostReduceAdd reducesTo_S100000x64_S100000_d1 v (Ideal.ofBits .f32 0x00000000#32) (ix1 n) = _
  rw [Ideal.hostReduceAdd_single reducesTo_S100000x64_S100000_d1 (by decide), Ideal.ofBits_zero_f32, zero_add]
  refine Finset.sum_congr rfl fun k _ => congrArg v ?_
  funext a
  match a with
  | ⟨0, _⟩ => rfl
  | ⟨1, _⟩ => rfl

/-- A vector of row values laid out as a column reads the row's value. -/
theorem bcast_col (c : FVec Ideal S100000 .f32) (n : Fin 100000) :
    broadcastInDim S100000x1 ![0] bcast_S100000_S100000x1_0 c (ix2 n (0 : Fin 1)) = c (ix1 n) :=
  broadcastInDim_apply _ _ _ _ _ (fun a => by match a with | ⟨0, _⟩ => rfl)

/-- The host's length of row `n`: the square root of the row's sum of squares. -/
theorem lengths_apply (r : FVec Ideal S100000x64 .f32) (n : Fin 100000) :
    lengths (F := Ideal) r (ix2 n (0 : Fin 1)) = Ideal.sqrt (∑ k : Fin 64, r (ix2 n k) * r (ix2 n k)) := by
  unfold lengths
  rw [hostSqrt_apply, bcast_col, rowsum_apply]
  rfl

/-! ## The row normalization -/

/-- A scalar broadcast over the column of lengths reads the scalar. -/
theorem bcast_scalar_col (c : FVec Ideal S_ .f32) (n : Fin 100000) :
    broadcastInDim S100000x1 ![] bcast_S_S100000x1 c (ix2 n (0 : Fin 1)) = c ix0 :=
  broadcastInDim_apply _ _ _ _ _ (fun a => a.elim0)

/-- A column broadcast back over the rows reads the row's value at every entry of the row. -/
theorem bcast_col_feat (c : FVec Ideal S100000x1 .f32) (n : Fin 100000) (j : Fin 64) :
    broadcastInDim S100000x64 ![0, 1] bcast_S100000x1_S100000x64_0_1 c (ix2 n j) = c (ix2 n (0 : Fin 1)) :=
  broadcastInDim_apply _ _ _ _ _ (fun a => by match a with | ⟨0, _⟩ => rfl | ⟨1, _⟩ => rfl)

/-- The host's rectifier and division by the row lengths is the row normalization. -/
theorem tail_eq (a : FVec Ideal S100000x64 .f32) :
    tail (F := Ideal) a = Cert.Layer.normalize a := by
  funext i
  obtain ⟨n, j, rfl⟩ : ∃ (n : Fin 100000) (j : Fin 64), i = ix2 n j := ⟨i 0, i 1, eq_ix2 i⟩
  rw [Cert.Layer.normalize_ix2]
  unfold tail Cert.Layer.normalizeAt Cert.Layer.rowLength Cert.Layer.rowSquares
  rw [hostDivf_apply, rectify_apply, bcast_col_feat, maximumf_apply, lengths_apply, bcast_scalar_col, constant_apply]
  simp only [rectify_apply]
  rfl

end Cert.ReferenceIdeal.Stages

end
-- ==== Proof.lean ====
/-
  A message-passing layer on a graph of 100000 nodes and 1280000 edges: node features are mapped linearly, each node
  gathers the mapped rows of the nodes its edges point to, weighted by the edge's degree normalization and a Gaussian of
  its distance, and every gathered row is rectified and divided by its Euclidean length.

  The kernel program computes the linear map and the final normalization in two tiled kernels (2000 and 10000 rows per
  grid point) and the edge work on the host between them; the reference does everything on the host. At the extended
  reals the two agree entry by entry, for every edge list and all float inputs, with no use of finiteness:

  * the tiled matrix product into a zero accumulator and the host's matrix product are the same sum over the 64
    features, `Σ_k x[n, k] · w[j, k]`, and both add `b[j]`; each of the 100000 rows is written by exactly one grid point;
  * the edge work is the same host operations on both sides applied to the same edge list and distances, so it is
    carried as one function of the mapped features and never opened;
  * the normalization is row-wise and no row is split across grid points, so the sum of squares a grid point takes
    inside its block is the row's; rectifier, square root, lower bound and division are the same scalar functions, and
    the slope and the bound are the same float words on both sides.

  The two kernel programs' frames are the generated ones. The reference's frame is its run with the result dropped.
  The idealization rewrote no operation, so nothing is to be shown for it.
-/
import proofs.«422083_j9234179686472_4_alg».proof.Defs
import proofs.«422083_j9234179686472_4_alg».proof.Proof.Gen.Kernel
import proofs.«422083_j9234179686472_4_alg».proof.Proof.Gen.Kernel.Skeleton
import proofs.«422083_j9234179686472_4_alg».proof.Proof.Gen.Kernel.Launch
import proofs.«422083_j9234179686472_4_alg».proof.Proof.Gen.Kernel.Points
import proofs.«422083_j9234179686472_4_alg».proof.Proof.Gen.Kernel.Frame
import proofs.«422083_j9234179686472_4_alg».proof.Proof.Gen.KernelIdeal
import proofs.«422083_j9234179686472_4_alg».proof.Proof.Gen.KernelIdeal.Skeleton
import proofs.«422083_j9234179686472_4_alg».proof.Proof.Gen.KernelIdeal.Launch
import proofs.«422083_j9234179686472_4_alg».proof.Proof.Gen.KernelIdeal.Points
import proofs.«422083_j9234179686472_4_alg».proof.Proof.Gen.KernelIdeal.Frame
import proofs.«422083_j9234179686472_4_alg».proof.Proof.Gen.ReferenceIdeal
import proofs.«422083_j9234179686472_4_alg».proof.Proof.Gen.Pre_finite_inputs
import proofs.«422083_j9234179686472_4_alg».proof.Proof.KernelValue
import proofs.«422083_j9234179686472_4_alg».proof.Proof.RefRun
import proofs.«422083_j9234179686472_4_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- From memories that agree on the arguments both programs end with the normalization of the aggregation of the linear
    map of the arguments: the kernel program by its two regions read as values, the reference by its three stages. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4⟩ := hagree c
  rw [e0, e1, e2, e3, e4, Cert.ReferenceIdeal.Stages.head_eq, Cert.ReferenceIdeal.Stages.tail_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
